-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x128x21x256 : Shape := ⟨4, ![64, 128, 21, 256]⟩
abbrev S_ : Shape := ⟨0, ![]⟩

class Facts : Prop where
  bcast_S_S64x128x21x256 : S_.BroadcastsInDim S64x128x21x256 (![] : Fin 0 → Fin S64x128x21x256.rank)
  reducesTo_S64x128x21x256_S_d0_1_2_3 : S64x128x21x256.ReducesTo [0, 1, 2, 3] S_
  h_S_ : 0 < S_.numel

variable [Facts]

def fn {F : FTy → Type} [FloatOps F] (main_arg0 : FVec F S64x128x21x256 .f32) : IVec S_ 1 :=
  let main_v0 : FVec F S64x128x21x256 .f32 := Host.absf main_arg0
  let main_cst : FVec F S_ .f32 := constant S_ .f32 0x7F800000#32
  let main_v1 : FVec F S64x128x21x256 .f32 := broadcastInDim S64x128x21x256 ![] bcast_S_S64x128x21x256 main_cst
  let main_v2 : IVec S64x128x21x256 1 := cmpf .olt main_v0 main_v1
  let main_c : IVec S_ 1 := constantI S_ 1 1#1
  let main_v3 : IVec S_ 1 := (fun x v => Host.reduce IntOp.andi x v reducesTo_S64x128x21x256_S_d0_1_2_3 h_S_) main_v2 main_c
  main_v3
-- ==== Kernel.lean ====
abbrev S64x128x21x256 : Shape := ⟨4, ![64, 128, 21, 256]⟩
abbrev S1x128x21x256 : Shape := ⟨4, ![1, 128, 21, 256]⟩
abbrev S1x128x21x86 : Shape := ⟨4, ![1, 128, 21, 86]⟩
abbrev S1x127x21x86 : Shape := ⟨4, ![1, 127, 21, 86]⟩
abbrev S1x1x21x86 : Shape := ⟨4, ![1, 1, 21, 86]⟩
abbrev S1x128x21x85 : Shape := ⟨4, ![1, 128, 21, 85]⟩
abbrev S1x127x21x85 : Shape := ⟨4, ![1, 127, 21, 85]⟩
abbrev S1x1x21x85 : Shape := ⟨4, ![1, 1, 21, 85]⟩

abbrev nBuf : Space → Nat
  | .hbm => 2
  | .vmem => 4
  | .smem => 0
  | _ => 0

abbrev bufTy : (tb : Table) → Fin (tcTables nBuf tb) → BufTy
  | .hbm, ⟨0, _⟩ => ⟨S64x128x21x256, .f32⟩
  | .hbm, ⟨1, _⟩ => ⟨S64x128x21x256, .f32⟩
  | .local _ .vmem, ⟨0, _⟩ => ⟨S1x128x21x256, .f32⟩
  | .local _ .vmem, ⟨1, _⟩ => ⟨S1x128x21x256, .f32⟩
  | .local _ .vmem, ⟨2, _⟩ => ⟨S1x128x21x256, .f32⟩
  | .local _ .vmem, ⟨3, _⟩ => ⟨S1x128x21x256, .f32⟩
  | _, _ => ⟨S64x128x21x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x128x21x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x21x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1x128x21x256_S1x128x21x256_0_0_0_0 : ∀ a, (![0, 0, 0, 0] : Fin 4 → Nat) a + S1x128x21x256.size a ≤ S1x128x21x256.size a
  h_S1x128x21x256 : 0 < S1x128x21x256.numel
  slices_S1x128x21x256_o0_0_0_0_S1x128x21x86 : S1x128x21x256.Slices ![0, 0, 0, 0] S1x128x21x86
  slices_S1x128x21x86_o0_1_0_0_S1x127x21x86 : S1x128x21x86.Slices ![0, 1, 0, 0] S1x127x21x86
  concatenates_S1x127x21x86_S1x1x21x86_S1x128x21x86_d1 : Shape.Concatenates [S1x127x21x86, S1x1x21x86] S1x128x21x86 1
  slices_S1x128x21x256_o0_0_0_86_S1x128x21x85 : S1x128x21x256.Slices ![0, 0, 0, 86] S1x128x21x85
  slices_S1x128x21x256_o0_0_0_171_S1x128x21x85 : S1x128x21x256.Slices ![0, 0, 0, 171] S1x128x21x85
  slices_S1x128x21x85_o0_0_0_0_S1x127x21x85 : S1x128x21x85.Slices ![0, 0, 0, 0] S1x127x21x85
  concatenates_S1x1x21x85_S1x127x21x85_S1x128x21x85_d1 : Shape.Concatenates [S1x1x21x85, S1x127x21x85] S1x128x21x85 1
  concatenates_S1x128x21x86_S1x128x21x85_S1x128x21x85_S1x128x21x256_d3 : Shape.Concatenates [S1x128x21x86, S1x128x21x85, S1x128x21x85] S1x128x21x256 3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x21x256.size a ≤ S64x128x21x256.size a
  hwx0_0 : ∀ i : grid0.Coords, EltTy.bits .f32 = 32 ∨ (Rect.block (s := S64x128x21x256) S1x128x21x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x21x256.size a ≤ S64x128x21x256.size a
  hwx0_1 : ∀ i : grid0.Coords, EltTy.bits .f32 = 32 ∨ (Rect.block (s := S64x128x21x256) S1x128x21x256.size (cc0_transform_1 i) (hinb0_1 i)).WholeWords (EltTy.packing .f32)

variable [Facts₀]

abbrev win0_0 : Pipeline.Window sig grid0 :=
  Pipeline.Window.ofSpec (Memref.whole main_arg0) S1x128x21x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x128x21x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x128x21x256 : Shape := ⟨4, ![64, 128, 21, 256]⟩
abbrev S64x128x21x86 : Shape := ⟨4, ![64, 128, 21, 86]⟩
abbrev S64x127x21x86 : Shape := ⟨4, ![64, 127, 21, 86]⟩
abbrev S_ : Shape := ⟨0, ![]⟩
abbrev S64x128x21x85 : Shape := ⟨4, ![64, 128, 21, 85]⟩
abbrev S64x127x21x85 : Shape := ⟨4, ![64, 127, 21, 85]⟩

abbrev nBuf : Space → Nat
  | .hbm => 13
  | .vmem => 0
  | .smem => 0
  | _ => 0

abbrev bufTy : (tb : Table) → Fin (tcTables nBuf tb) → BufTy
  | .hbm, ⟨0, _⟩ => ⟨S64x128x21x256, .f32⟩
  | .hbm, ⟨1, _⟩ => ⟨S64x128x21x86, .f32⟩
  | .hbm, ⟨2, _⟩ => ⟨S64x127x21x86, .f32⟩
  | .hbm, ⟨3, _⟩ => ⟨S_, .i32⟩
  | .hbm, ⟨4, _⟩ => ⟨S_, .f32⟩
  | .hbm, ⟨5, _⟩ => ⟨S64x128x21x86, .f32⟩
  | .hbm, ⟨6, _⟩ => ⟨S64x128x21x85, .f32⟩
  | .hbm, ⟨7, _⟩ => ⟨S64x128x21x85, .f32⟩
  | .hbm, ⟨8, _⟩ => ⟨S64x127x21x85, .f32⟩
  | .hbm, ⟨9, _⟩ => ⟨S_, .i32⟩
  | .hbm, ⟨10, _⟩ => ⟨S_, .f32⟩
  | .hbm, ⟨11, _⟩ => ⟨S64x128x21x85, .f32⟩
  | .hbm, ⟨12, _⟩ => ⟨S64x128x21x256, .f32⟩
  | _, _ => ⟨S64x128x21x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_call0_v0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_call1_v0 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  slices_S64x128x21x256_S64x128x21x86_0_0_0_0 : S64x128x21x256.Slices ![0, 0, 0, 0] S64x128x21x86
  slices_S64x128x21x86_S64x127x21x86_0_1_0_0 : S64x128x21x86.Slices ![0, 1, 0, 0] S64x127x21x86
  pads_S64x127x21x86_S64x128x21x86_000_010_000_000 : S64x127x21x86.Pads (![0, 0, 0, 0] : Fin 4 → Nat) ![0, 1, 0, 0] ![0, 0, 0, 0] S64x128x21x86
  h_S_ : 0 < S_.numel
  slices_S64x128x21x256_S64x128x21x85_0_0_0_86 : S64x128x21x256.Slices ![0, 0, 0, 86] S64x128x21x85
  slices_S64x128x21x256_S64x128x21x85_0_0_0_171 : S64x128x21x256.Slices ![0, 0, 0, 171] S64x128x21x85
  slices_S64x128x21x85_S64x127x21x85_0_0_0_0 : S64x128x21x85.Slices ![0, 0, 0, 0] S64x127x21x85
  pads_S64x127x21x85_S64x128x21x85_000_100_000_000 : S64x127x21x85.Pads (![0, 1, 0, 0] : Fin 4 → Nat) ![0, 0, 0, 0] ![0, 0, 0, 0] S64x128x21x85
  concatenates_S64x128x21x86_S64x128x21x85_S64x128x21x85_S64x128x21x256_d3 : Shape.Concatenates [S64x128x21x86, S64x128x21x85, S64x128x21x85] S64x128x21x256 3

variable [Facts₀]

class Facts : Prop extends Facts₀ where

variable [Facts]
-- ==== Proof.TimeShift.lean ====
/-
  The operation both programs compute, as ONE function of the input array, entry by entry.

  The input is an array `x` of extents [B, 128, 21, 256]: batch entry, time step, node, channel. The 256 channels are
  cut into three consecutive groups, [0, 86), [86, 171) and [171, 256), and each group is moved along the time axis by
  its own amount:
      y[b, t, n, c] = x[b, t + 1, n, c]    for c < 86          (the group read one time step LATER),
      y[b, t, n, c] = x[b, t,     n, c]    for 86 ≤ c < 171    (the group left in place),
      y[b, t, n, c] = x[b, t − 1, n, c]    for 171 ≤ c         (the group read one time step EARLIER),
  and where the time step read falls outside [0, 128) — the last step of the first group, the first step of the third —
  the entry is the padding value `z`.

  Nothing here mentions a float: the operation only moves entries, so it is stated for any type of entries, and the
  five case lemmas below are all a proof that some array IS the shifted one has to establish, entry by entry. The shift
  never mixes batch entries (`shifted_batch`): shifting one batch entry of `x` gives that batch entry of the shift of
  `x`, which is what lets a kernel work through the batch one entry at a time.
-/
import Idealize.ShloMosaic.Lib.ValueIdx

namespace Cert.TimeShift

open Idealize.ShloMosaic

/-- The arrays' shape, for `B` batch entries: [B, 128, 21, 256]. -/
abbrev Sh (B : Nat) : Shape := ⟨4, ![B, 128, 21, 256]⟩

/-- The index `i` with its time coordinate replaced by `t`. -/
abbrev atTime {B : Nat} (i : (Sh B).Idx) (t : Fin 128) : (Sh B).Idx := fun a => match a with
  | ⟨0, _⟩ => i 0
  | ⟨1, _⟩ => t
  | ⟨2, _⟩ => i 2
  | ⟨3, _⟩ => i 3

/-- The index of batch entry `b` of an array whose coordinates inside the entry are those of `j` (an index of a
    one-entry array). -/
abbrev inBatch {B : Nat} (b : Fin B) (j : (Sh 1).Idx) : (Sh B).Idx := fun a => match a with
  | ⟨0, _⟩ => b
  | ⟨1, _⟩ => j 1
  | ⟨2, _⟩ => j 2
  | ⟨3, _⟩ => j 3

/-- THE SHIFTED ARRAY: the first channel group one time step later, the second in place, the third one time step
    earlier, `z` where the step read is outside the array. -/
def shifted {α : Type} {B : Nat} (z : α) (x : (Sh B).Idx → α) : (Sh B).Idx → α := fun i =>
  if (i 3).val < 86 then
    if h : (i 1).val + 1 < 128 then x (atTime i ⟨(i 1).val + 1, h⟩) else z
  else if (i 3).val < 171 then x i
  else if 1 ≤ (i 1).val then x (atTime i ⟨(i 1).val - 1, by have h1 : (i 1).val < 128 := (i 1).isLt; omega⟩) else z

section Cases
variable {α : Type} {B : Nat} (z : α) (x : (Sh B).Idx → α) (i : (Sh B).Idx)

/-- First group, not at the last time step: the entry one step later. -/
theorem shifted_first (hc : (i 3).val < 86) (ht : (i 1).val + 1 < 128) :
    shifted z x i = x (atTime i ⟨(i 1).val + 1, ht⟩) := by
  unfold shifted; rw [if_pos hc, dif_pos ht]

/-- First group at the last time step: nothing later to read. -/
theorem shifted_first_end (hc : (i 3).val < 86) (ht : ¬(i 1).val + 1 < 128) : shifted z x i = z := by
  unfold shifted; rw [if_pos hc, dif_neg ht]

/-- Second group: the entry itself. -/
theorem shifted_second (hc : ¬(i 3).val < 86) (hc' : (i 3).val < 171) : shifted z x i = x i := by
  unfold shifted; rw [if_neg hc, if_pos hc']

/-- Third group, not at the first time step: the entry one step earlier. -/
theorem shifted_third (hc : ¬(i 3).val < 86) (hc' : ¬(i 3).val < 171) (ht : 1 ≤ (i 1).val) :
    shifted z x i = x (atTime i ⟨(i 1).val - 1, by have h1 : (i 1).val < 128 := (i 1).isLt; omega⟩) := by
  unfold shifted; rw [if_neg hc, if_neg hc', if_pos ht]

/-- Third group at the first time step: nothing earlier to read. -/
theorem shifted_third_start (hc : ¬(i 3).val < 86) (hc' : ¬(i 3).val < 171) (ht : ¬1 ≤ (i 1).val) :
    shifted z x i = z := by
  unfold shifted; rw [if_neg hc, if_neg hc', if_neg ht]

end Cases

/-- THE SHIFT ACTS INSIDE EACH BATCH ENTRY: the shift of batch entry `b` of `x` (a one-entry array) is batch entry `b`
    of the shift of `x`. Both sides pick the same case, since the channel and the time step of `inBatch b j` are
    those of `j`, and read `x` at the same index. -/
theorem shifted_batch {α : Type} {B : Nat} (z : α) (x : (Sh B).Idx → α) (b : Fin B) (j : (Sh 1).Idx) :
    shifted z (fun y => x (inBatch b y)) j = shifted z x (inBatch b j) := by
  by_cases hc : (j 3).val < 86
  · by_cases ht : (j 1).val + 1 < 128
    · rw [shifted_first z _ j hc ht, shifted_first z x (inBatch b j) hc ht]
      exact congrArg x (funext fun a => match a with | ⟨0, _⟩ => rfl | ⟨1, _⟩ => rfl | ⟨2, _⟩ => rfl | ⟨3, _⟩ => rfl)
    · rw [shifted_first_end z _ j hc ht, shifted_first_end z x (inBatch b j) hc ht]
  · by_cases hc' : (j 3).val < 171
    · rw [shifted_second z _ j hc hc', shifted_second z x (inBatch b j) hc hc']
    · by_cases ht : 1 ≤ (j 1).val
      · rw [shifted_third z _ j hc hc' ht, shifted_third z x (inBatch b j) hc hc' ht]
        exact congrArg x (funext fun a => match a with | ⟨0, _⟩ => rfl | ⟨1, _⟩ => rfl | ⟨2, _⟩ => rfl | ⟨3, _⟩ => rfl)
      · rw [shifted_third_start z _ j hc hc' ht, shifted_third_start z x (inBatch b j) hc hc' ht]

end Cert.TimeShift
-- ==== Proof.ReferenceShift.lean ====
/-
  The reference computes the shifted array.

  The reference cuts the three channel groups out of the whole array with slices, moves the first group one time step
  by slicing off its first time step and padding one step of zeros at the END of the time axis, moves the third by
  slicing off its last time step and padding one step of zeros at the FRONT, and joins the three groups back along the
  channel axis. Read at an index `i`: the join picks the group by `i`'s channel; inside the first group the pad
  is the sliced operand wherever the time step is below 127 — and that operand, one slice deep, is the array one time
  step later — and the padding value at step 127; the second group's slice is the array itself; inside the third group
  the pad is the padding value at step 0 and the operand at the step before everywhere else. That is `shifted`,
  case by case. The padding value is the integer 0 converted to a float.
-/
import proofs.«151071_j71923522339051_1_alg».proof.Proof.Gen.ReferenceIdeal.Read
import proofs.«151071_j71923522339051_1_alg».proof.Proof.TimeShift
import Idealize.ShloMosaic.Lib.Pipeline.Value
import Idealize.ShloMosaic.Lib.KernelVsHost

noncomputable section

namespace Cert.ReferenceIdeal.Shift

open Cert.ReferenceIdeal Cert.ReferenceIdeal.Gen Cert.ReferenceIdeal.Read Idealize.ShloMosaic Cert.TimeShift

variable {F : FTy → Type} [FloatOps F]

/-- The reference's padding value: the integer 0 converted to a float. -/
abbrev zpad : Elt F .f32 := FloatOps.sitofp .f32 (0#32 : BitVec 32)

/-- An index of the whole array whose channel is in the first group, as an index of that group. -/
abbrev inFirst (i : S64x128x21x256.Idx) (hc : (i 3).val < 86) : S64x128x21x86.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, hc⟩

/-- An index of the whole array whose channel is in the second group, as an index of that group. -/
abbrev inSecond (i : S64x128x21x256.Idx) (hc : 86 ≤ (i 3).val) (hc' : (i 3).val < 171) : S64x128x21x85.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val - 86, by show (i 3).val - 86 < 85; omega⟩

/-- An index of the whole array whose channel is in the third group, as an index of that group. -/
abbrev inThird (i : S64x128x21x256.Idx) (hc : 171 ≤ (i 3).val) : S64x128x21x85.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val - 171, by have h3 : (i 3).val < 256 := (i 3).isLt; show (i 3).val - 171 < 85; omega⟩

/-! ## The join, by the channel -/

theorem join_first (x0 : S64x128x21x256.Idx → Elt F .f32) (i : S64x128x21x256.Idx) (hc : (i 3).val < 86) :
    val_main_v7 (F := F) x0 i = val_main_v2 (F := F) x0 (inFirst i hc) := by
  unfold val_main_v7
  exact concatenate_apply_piece 3 _ _ i 0 (by show (0 : Nat) < 3; omega) S64x128x21x86 (val_main_v2 (F := F) x0) rfl rfl 0 rfl (inFirst i hc)
    (fun b => match b with | ⟨0, _⟩ => fun _ => rfl | ⟨1, _⟩ => fun _ => rfl | ⟨2, _⟩ => fun _ => rfl | ⟨3, _⟩ => fun _ => rfl)
    (by show 0 + (i 3).val = (i 3).val; omega)

theorem join_second (x0 : S64x128x21x256.Idx → Elt F .f32) (i : S64x128x21x256.Idx) (hc : 86 ≤ (i 3).val) (hc' : (i 3).val < 171) :
    val_main_v7 (F := F) x0 i = val_main_v3 (F := F) x0 (inSecond i hc hc') := by
  unfold val_main_v7
  exact concatenate_apply_piece 3 _ _ i 1 (by show (1 : Nat) < 3; omega) S64x128x21x85 (val_main_v3 (F := F) x0) rfl rfl 86 rfl (inSecond i hc hc')
    (fun b => match b with | ⟨0, _⟩ => fun _ => rfl | ⟨1, _⟩ => fun _ => rfl | ⟨2, _⟩ => fun _ => rfl | ⟨3, _⟩ => fun h => absurd rfl h)
    (by show 86 + ((i 3).val - 86) = (i 3).val; omega)

theorem join_third (x0 : S64x128x21x256.Idx → Elt F .f32) (i : S64x128x21x256.Idx) (hc : 171 ≤ (i 3).val) :
    val_main_v7 (F := F) x0 i = val_main_v6 (F := F) x0 (inThird i hc) := by
  unfold val_main_v7
  exact concatenate_apply_piece 3 _ _ i 2 (by show (2 : Nat) < 3; omega) S64x128x21x85 (val_main_v6 (F := F) x0) rfl rfl 171 rfl (inThird i hc)
    (fun b => match b with | ⟨0, _⟩ => fun _ => rfl | ⟨1, _⟩ => fun _ => rfl | ⟨2, _⟩ => fun _ => rfl | ⟨3, _⟩ => fun h => absurd rfl h)
    (by show 171 + ((i 3).val - 171) = (i 3).val; omega)

/-! ## The first group: one time step later, zero at the last step -/

theorem first_inside (x0 : S64x128x21x256.Idx → Elt F .f32) (i : S64x128x21x256.Idx) (hc : (i 3).val < 86) (ht : (i 1).val + 1 < 128) :
    val_main_v2 (F := F) x0 (inFirst i hc) = x0 (atTime i ⟨(i 1).val + 1, ht⟩) := by
  unfold val_main_v2
  refine (pad_apply_of_inside _ _ _ _ _ pads_S64x127x21x86_S64x128x21x86_000_010_000_000 h_S_ (inFirst i hc)
    (fun a => match a with
      | ⟨0, _⟩ => ⟨(i 0).val, (i 0).isLt⟩
      | ⟨1, _⟩ => ⟨(i 1).val, by show (i 1).val < 127; omega⟩
      | ⟨2, _⟩ => ⟨(i 2).val, (i 2).isLt⟩
      | ⟨3, _⟩ => ⟨(i 3).val, hc⟩)
    (fun a => match a with
      | ⟨0, _⟩ => by show (i 0).val = 0 + (i 0).val * (0 + 1); omega
      | ⟨1, _⟩ => by show (i 1).val = 0 + (i 1).val * (0 + 1); omega
      | ⟨2, _⟩ => by show (i 2).val = 0 + (i 2).val * (0 + 1); omega
      | ⟨3, _⟩ => by show (i 3).val = 0 + (i 3).val * (0 + 1); omega)).trans ?_
  rw [val_main_v1_apply, val_main_v0_apply]
  exact congrArg x0 (funext fun a => match a with
    | ⟨0, _⟩ => rfl
    | ⟨1, _⟩ => Fin.ext (by show 1 + (i 1).val = (i 1).val + 1; omega)
    | ⟨2, _⟩ => rfl
    | ⟨3, _⟩ => rfl)

theorem first_end (x0 : S64x128x21x256.Idx → Elt F .f32) (i : S64x128x21x256.Idx) (hc : (i 3).val < 86) (ht : ¬(i 1).val + 1 < 128) :
    val_main_v2 (F := F) x0 (inFirst i hc) = zpad (F := F) := by
  unfold val_main_v2
  refine (pad_apply_of_not_inside _ _ _ _ _ pads_S64x127x21x86_S64x128x21x86_000_010_000_000 h_S_ (inFirst i hc) ⟨1, by decide⟩ ?_).trans rfl
  show ¬(0 ≤ (i 1).val ∧ ((i 1).val - 0) % (0 + 1) = 0 ∧ ((i 1).val - 0) / (0 + 1) < 127)
  omega

/-! ## The second group: in place -/

theorem second_eq (x0 : S64x128x21x256.Idx → Elt F .f32) (i : S64x128x21x256.Idx) (hc : 86 ≤ (i 3).val) (hc' : (i 3).val < 171) :
    val_main_v3 (F := F) x0 (inSecond i hc hc') = x0 i := by
  rw [val_main_v3_apply]
  exact congrArg x0 (funext fun a => match a with
    | ⟨0, _⟩ => rfl
    | ⟨1, _⟩ => rfl
    | ⟨2, _⟩ => rfl
    | ⟨3, _⟩ => Fin.ext (by show 86 + ((i 3).val - 86) = (i 3).val; omega))

/-! ## The third group: one time step earlier, zero at the first step -/

theorem third_inside (x0 : S64x128x21x256.Idx → Elt F .f32) (i : S64x128x21x256.Idx) (hc : 171 ≤ (i 3).val) (ht : 1 ≤ (i 1).val) :
    val_main_v6 (F := F) x0 (inThird i hc)
      = x0 (atTime i ⟨(i 1).val - 1, by have h1 : (i 1).val < 128 := (i 1).isLt; omega⟩) := by
  have h1 : (i 1).val < 128 := (i 1).isLt
  have h3 : (i 3).val < 256 := (i 3).isLt
  unfold val_main_v6
  refine (pad_apply_of_inside _ _ _ _ _ pads_S64x127x21x85_S64x128x21x85_000_100_000_000 h_S_ (inThird i hc)
    (fun a => match a with
      | ⟨0, _⟩ => ⟨(i 0).val, (i 0).isLt⟩
      | ⟨1, _⟩ => ⟨(i 1).val - 1, by show (i 1).val - 1 < 127; omega⟩
      | ⟨2, _⟩ => ⟨(i 2).val, (i 2).isLt⟩
      | ⟨3, _⟩ => ⟨(i 3).val - 171, by show (i 3).val - 171 < 85; omega⟩)
    (fun a => match a with
      | ⟨0, _⟩ => by show (i 0).val = 0 + (i 0).val * (0 + 1); omega
      | ⟨1, _⟩ => by show (i 1).val = 1 + ((i 1).val - 1) * (0 + 1); omega
      | ⟨2, _⟩ => by show (i 2).val = 0 + (i 2).val * (0 + 1); omega
      | ⟨3, _⟩ => by show (i 3).val - 171 = 0 + ((i 3).val - 171) * (0 + 1); omega)).trans ?_
  rw [val_main_v5_apply, val_main_v4_apply]
  exact congrArg x0 (funext fun a => match a with
    | ⟨0, _⟩ => rfl
    | ⟨1, _⟩ => rfl
    | ⟨2, _⟩ => rfl
    | ⟨3, _⟩ => Fin.ext (by show 171 + ((i 3).val - 171) = (i 3).val; omega))

theorem third_start (x0 : S64x128x21x256.Idx → Elt F .f32) (i : S64x128x21x256.Idx) (hc : 171 ≤ (i 3).val) (ht : ¬1 ≤ (i 1).val) :
    val_main_v6 (F := F) x0 (inThird i hc) = zpad (F := F) := by
  unfold val_main_v6
  refine (pad_apply_of_not_inside _ _ _ _ _ pads_S64x127x21x85_S64x128x21x85_000_100_000_000 h_S_ (inThird i hc) ⟨1, by decide⟩ ?_).trans rfl
  show ¬(1 ≤ (i 1).val ∧ ((i 1).val - 1) % (0 + 1) = 0 ∧ ((i 1).val - 1) / (0 + 1) < 127)
  omega

/-! ## The reference's result is the shifted array -/

/-- THE REFERENCE'S RESULT, as a function of its argument array, is the argument shifted, with the converted integer 0
    as the padding value. -/
theorem result_eq (x0 : S64x128x21x256.Idx → Elt F .f32) :
    val_main_v7 (F := F) x0 = shifted (zpad (F := F)) x0 := by
  funext i
  by_cases hc : (i 3).val < 86
  · rw [join_first x0 i hc]
    by_cases ht : (i 1).val + 1 < 128
    · rw [first_inside x0 i hc ht, shifted_first _ x0 i hc ht]
    · rw [first_end x0 i hc ht, shifted_first_end _ x0 i hc ht]
  · by_cases hc' : (i 3).val < 171
    · rw [join_second x0 i (by omega) hc', second_eq x0 i (by omega) hc', shifted_second _ x0 i hc hc']
    · rw [join_third x0 i (by omega)]
      by_cases ht : 1 ≤ (i 1).val
      · rw [third_inside x0 i (by omega) ht, shifted_third _ x0 i hc hc' ht]
      · rw [third_start x0 i (by omega) ht, shifted_third_start _ x0 i hc hc' ht]

end Cert.ReferenceIdeal.Shift

end
-- ==== Proof.KernelShift.lean ====
/-
  The kernel's body computes the shift of its block.

  At a grid point the body holds ONE batch entry of the array, a block of extents [1, 128, 21, 256]. It cuts the three
  channel groups out of the block; moves the first group one time step by dropping its first step and joining one step
  of zeros AFTER the remaining 127 along the time axis; moves the third by dropping its last step and joining one step of
  zeros BEFORE the remaining 127; and joins the three groups back along the channel axis — that join is what it stores.
  Read at an index `j` of the block: the outer join picks the group by `j`'s channel; in the first group the inner join
  is the sliced block (one step later) below time step 127 and the zero piece at step 127; the second group is the block
  itself; in the third group the inner join is the zero piece at step 0 and the sliced block (one step earlier) from step
  1 on. So the stored value is the shift of the block, with the body's own converted integer 0 as the padding value.
-/
import proofs.«151071_j71923522339051_1_alg».proof.Proof.Gen.KernelIdeal.Skeleton
import proofs.«151071_j71923522339051_1_alg».proof.Proof.TimeShift
import Idealize.ShloMosaic.Lib.Pipeline.Value

noncomputable section

namespace Cert.KernelIdeal.Shift

open Cert.KernelIdeal Cert.KernelIdeal.Gen Idealize.ShloMosaic Cert.TimeShift

variable {F : FTy → Type} [FloatOps F]

/-- The body's padding value: the integer 0 converted to a float. -/
abbrev zpad : Elt F .f32 := Scalar.sitofp .f32 (0#32 : BitVec 32)

/-! ## The three groups as the body builds them -/

/-- The first group, moved: time steps 1 … 127 of channels [0, 86), then one step of zeros. -/
def first (x0 : Vec F S1x128x21x256 .f32) : FVec F S1x128x21x86 .f32 :=
  concatenate S1x128x21x86 1
    [⟨S1x127x21x86, extractStridedSlice S1x127x21x86 ![0, 1, 0, 0]
        (extractStridedSlice S1x128x21x86 ![0, 0, 0, 0] x0 slices_S1x128x21x256_o0_0_0_0_S1x128x21x86)
        slices_S1x128x21x86_o0_1_0_0_S1x127x21x86⟩,
     ⟨S1x1x21x86, broadcast S1x1x21x86 (Scalar.sitofp (F := F) .f32 (0#32 : BitVec 32))⟩]
    concatenates_S1x127x21x86_S1x1x21x86_S1x128x21x86_d1

/-- The second group: channels [86, 171) as they are. -/
def second (x0 : Vec F S1x128x21x256 .f32) : FVec F S1x128x21x85 .f32 :=
  extractStridedSlice S1x128x21x85 ![0, 0, 0, 86] x0 slices_S1x128x21x256_o0_0_0_86_S1x128x21x85

/-- The third group, moved: one step of zeros, then time steps 0 … 126 of channels [171, 256). -/
def third (x0 : Vec F S1x128x21x256 .f32) : FVec F S1x128x21x85 .f32 :=
  concatenate S1x128x21x85 1
    [⟨S1x1x21x85, broadcast S1x1x21x85 (Scalar.sitofp (F := F) .f32 (0#32 : BitVec 32))⟩,
     ⟨S1x127x21x85, extractStridedSlice S1x127x21x85 ![0, 0, 0, 0]
        (extractStridedSlice S1x128x21x85 ![0, 0, 0, 171] x0 slices_S1x128x21x256_o0_0_0_171_S1x128x21x85)
        slices_S1x128x21x85_o0_0_0_0_S1x127x21x85⟩]
    concatenates_S1x1x21x85_S1x127x21x85_S1x128x21x85_d1

/-- What the body stores is the three groups joined along the channel axis. -/
theorem stored_eq (x0 : Vec F S1x128x21x256 .f32) :
    k0_pay1 x0 = concatenate S1x128x21x256 3
      [⟨S1x128x21x86, first x0⟩, ⟨S1x128x21x85, second x0⟩, ⟨S1x128x21x85, third x0⟩]
      concatenates_S1x128x21x86_S1x128x21x85_S1x128x21x85_S1x128x21x256_d3 := rfl

/-! ## Indices of the block as indices of a group -/

abbrev inFirst (j : S1x128x21x256.Idx) (hc : (j 3).val < 86) : S1x128x21x86.Idx := fun a => match a with
  | ⟨0, _⟩ => ⟨(j 0).val, (j 0).isLt⟩
  | ⟨1, _⟩ => ⟨(j 1).val, (j 1).isLt⟩
  | ⟨2, _⟩ => ⟨(j 2).val, (j 2).isLt⟩
  | ⟨3, _⟩ => ⟨(j 3).val, hc⟩

abbrev inSecond (j : S1x128x21x256.Idx) (hc : 86 ≤ (j 3).val) (hc' : (j 3).val < 171) : S1x128x21x85.Idx := fun a => match a with
  | ⟨0, _⟩ => ⟨(j 0).val, (j 0).isLt⟩
  | ⟨1, _⟩ => ⟨(j 1).val, (j 1).isLt⟩
  | ⟨2, _⟩ => ⟨(j 2).val, (j 2).isLt⟩
  | ⟨3, _⟩ => ⟨(j 3).val - 86, by show (j 3).val - 86 < 85; omega⟩

abbrev inThird (j : S1x128x21x256.Idx) (hc : 171 ≤ (j 3).val) : S1x128x21x85.Idx := fun a => match a with
  | ⟨0, _⟩ => ⟨(j 0).val, (j 0).isLt⟩
  | ⟨1, _⟩ => ⟨(j 1).val, (j 1).isLt⟩
  | ⟨2, _⟩ => ⟨(j 2).val, (j 2).isLt⟩
  | ⟨3, _⟩ => ⟨(j 3).val - 171, by have h3 : (j 3).val < 256 := (j 3).isLt; show (j 3).val - 171 < 85; omega⟩

/-! ## The outer join, by the channel -/

theorem join_first (x0 : Vec F S1x128x21x256 .f32) (j : S1x128x21x256.Idx) (hc : (j 3).val < 86) :
    k0_pay1 x0 j = first x0 (inFirst j hc) := by
  rw [stored_eq]
  exact concatenate_apply_piece 3 _ _ j 0 (by show (0 : Nat) < 3; omega) S1x128x21x86 (first x0) rfl rfl 0 rfl (inFirst j hc)
    (fun b => match b with | ⟨0, _⟩ => fun _ => rfl | ⟨1, _⟩ => fun _ => rfl | ⟨2, _⟩ => fun _ => rfl | ⟨3, _⟩ => fun _ => rfl)
    (by show 0 + (j 3).val = (j 3).val; omega)

theorem join_second (x0 : Vec F S1x128x21x256 .f32) (j : S1x128x21x256.Idx) (hc : 86 ≤ (j 3).val) (hc' : (j 3).val < 171) :
    k0_pay1 x0 j = second x0 (inSecond j hc hc') := by
  rw [stored_eq]
  exact concatenate_apply_piece 3 _ _ j 1 (by show (1 : Nat) < 3; omega) S1x128x21x85 (second x0) rfl rfl 86 rfl (inSecond j hc hc')
    (fun b => match b with | ⟨0, _⟩ => fun _ => rfl | ⟨1, _⟩ => fun _ => rfl | ⟨2, _⟩ => fun _ => rfl | ⟨3, _⟩ => fun h => absurd rfl h)
    (by show 86 + ((j 3).val - 86) = (j 3).val; omega)

theorem join_third (x0 : Vec F S1x128x21x256 .f32) (j : S1x128x21x256.Idx) (hc : 171 ≤ (j 3).val) :
    k0_pay1 x0 j = third x0 (inThird j hc) := by
  rw [stored_eq]
  exact concatenate_apply_piece 3 _ _ j 2 (by show (2 : Nat) < 3; omega) S1x128x21x85 (third x0) rfl rfl 171 rfl (inThird j hc)
    (fun b => match b with | ⟨0, _⟩ => fun _ => rfl | ⟨1, _⟩ => fun _ => rfl | ⟨2, _⟩ => fun _ => rfl | ⟨3, _⟩ => fun h => absurd rfl h)
    (by show 171 + ((j 3).val - 171) = (j 3).val; omega)

/-! ## The first group: one time step later, zero at the last step -/

theorem first_inside (x0 : Vec F S1x128x21x256 .f32) (j : S1x128x21x256.Idx) (hc : (j 3).val < 86) (ht : (j 1).val + 1 < 128) :
    first x0 (inFirst j hc) = x0 (atTime j ⟨(j 1).val + 1, ht⟩) := by
  unfold first
  refine (concatenate_pair_apply_left (t := S1x128x21x86) (s₁ := S1x127x21x86) (s₂ := S1x1x21x86) _ _ _ _ (inFirst j hc) rfl
    (fun a => match a with
      | ⟨0, _⟩ => ⟨(j 0).val, (j 0).isLt⟩
      | ⟨1, _⟩ => ⟨(j 1).val, by show (j 1).val < 127; omega⟩
      | ⟨2, _⟩ => ⟨(j 2).val, (j 2).isLt⟩
      | ⟨3, _⟩ => ⟨(j 3).val, hc⟩)
    (fun b => match b with | ⟨0, _⟩ => rfl | ⟨1, _⟩ => rfl | ⟨2, _⟩ => rfl | ⟨3, _⟩ => rfl)).trans ?_
  refine (extractStridedSlice_apply (s := S1x128x21x86) (t := S1x127x21x86) _ _ _ _
    (fun a => match a with
      | ⟨0, _⟩ => ⟨(j 0).val, (j 0).isLt⟩
      | ⟨1, _⟩ => ⟨(j 1).val + 1, ht⟩
      | ⟨2, _⟩ => ⟨(j 2).val, (j 2).isLt⟩
      | ⟨3, _⟩ => ⟨(j 3).val, hc⟩)
    (fun a => match a with
      | ⟨0, _⟩ => by show (j 0).val = 0 + (j 0).val; omega
      | ⟨1, _⟩ => by show (j 1).val + 1 = 1 + (j 1).val; omega
      | ⟨2, _⟩ => by show (j 2).val = 0 + (j 2).val; omega
      | ⟨3, _⟩ => by show (j 3).val = 0 + (j 3).val; omega)).trans ?_
  refine extractStridedSlice_apply (s := S1x128x21x256) (t := S1x128x21x86) _ _ _ _ (atTime j ⟨(j 1).val + 1, ht⟩)
    (fun a => match a with
      | ⟨0, _⟩ => by show (j 0).val = 0 + (j 0).val; omega
      | ⟨1, _⟩ => by show (j 1).val + 1 = 0 + ((j 1).val + 1); omega
      | ⟨2, _⟩ => by show (j 2).val = 0 + (j 2).val; omega
      | ⟨3, _⟩ => by show (j 3).val = 0 + (j 3).val; omega)

theorem first_end (x0 : Vec F S1x128x21x256 .f32) (j : S1x128x21x256.Idx) (hc : (j 3).val < 86) (ht : ¬(j 1).val + 1 < 128) :
    first x0 (inFirst j hc) = zpad (F := F) := by
  have h1 : (j 1).val < 128 := (j 1).isLt
  unfold first
  exact concatenate_pair_apply_right (t := S1x128x21x86) (s₁ := S1x127x21x86) (s₂ := S1x1x21x86) _ _ _ _ (inFirst j hc) rfl rfl
    (fun a => match a with
      | ⟨0, _⟩ => ⟨(j 0).val, (j 0).isLt⟩
      | ⟨1, _⟩ => ⟨0, by show (0 : Nat) < 1; omega⟩
      | ⟨2, _⟩ => ⟨(j 2).val, (j 2).isLt⟩
      | ⟨3, _⟩ => ⟨(j 3).val, hc⟩)
    (fun b => match b with | ⟨0, _⟩ => fun _ => rfl | ⟨1, _⟩ => fun h => absurd rfl h | ⟨2, _⟩ => fun _ => rfl | ⟨3, _⟩ => fun _ => rfl)
    (by show 0 + 127 = (j 1).val; omega)

/-! ## The second group: in place -/

theorem second_eq (x0 : Vec F S1x128x21x256 .f32) (j : S1x128x21x256.Idx) (hc : 86 ≤ (j 3).val) (hc' : (j 3).val < 171) :
    second x0 (inSecond j hc hc') = x0 j := by
  unfold second
  exact extractStridedSlice_apply (s := S1x128x21x256) (t := S1x128x21x85) _ _ _ _ j
    (fun a => match a with
      | ⟨0, _⟩ => by show (j 0).val = 0 + (j 0).val; omega
      | ⟨1, _⟩ => by show (j 1).val = 0 + (j 1).val; omega
      | ⟨2, _⟩ => by show (j 2).val = 0 + (j 2).val; omega
      | ⟨3, _⟩ => by show (j 3).val = 86 + ((j 3).val - 86); omega)

/-! ## The third group: one time step earlier, zero at the first step -/

theorem third_inside (x0 : Vec F S1x128x21x256 .f32) (j : S1x128x21x256.Idx) (hc : 171 ≤ (j 3).val) (ht : 1 ≤ (j 1).val) :
    third x0 (inThird j hc)
      = x0 (atTime j ⟨(j 1).val - 1, by have h1 : (j 1).val < 128 := (j 1).isLt; omega⟩) := by
  have h1 : (j 1).val < 128 := (j 1).isLt
  have h3 : (j 3).val < 256 := (j 3).isLt
  unfold third
  refine (concatenate_pair_apply_right (t := S1x128x21x85) (s₁ := S1x1x21x85) (s₂ := S1x127x21x85) _ _ _ _ (inThird j hc) rfl rfl
    (fun a => match a with
      | ⟨0, _⟩ => ⟨(j 0).val, (j 0).isLt⟩
      | ⟨1, _⟩ => ⟨(j 1).val - 1, by show (j 1).val - 1 < 127; omega⟩
      | ⟨2, _⟩ => ⟨(j 2).val, (j 2).isLt⟩
      | ⟨3, _⟩ => ⟨(j 3).val - 171, by show (j 3).val - 171 < 85; omega⟩)
    (fun b => match b with | ⟨0, _⟩ => fun _ => rfl | ⟨1, _⟩ => fun h => absurd rfl h | ⟨2, _⟩ => fun _ => rfl | ⟨3, _⟩ => fun _ => rfl)
    (by show ((j 1).val - 1) + 1 = (j 1).val; omega)).trans ?_
  refine (extractStridedSlice_apply (s := S1x128x21x85) (t := S1x127x21x85) _ _ _ _
    (fun a => match a with
      | ⟨0, _⟩ => ⟨(j 0).val, (j 0).isLt⟩
      | ⟨1, _⟩ => ⟨(j 1).val - 1, by show (j 1).val - 1 < 128; omega⟩
      | ⟨2, _⟩ => ⟨(j 2).val, (j 2).isLt⟩
      | ⟨3, _⟩ => ⟨(j 3).val - 171, by show (j 3).val - 171 < 85; omega⟩)
    (fun a => match a with
      | ⟨0, _⟩ => by show (j 0).val = 0 + (j 0).val; omega
      | ⟨1, _⟩ => by show (j 1).val - 1 = 0 + ((j 1).val - 1); omega
      | ⟨2, _⟩ => by show (j 2).val = 0 + (j 2).val; omega
      | ⟨3, _⟩ => by show (j 3).val - 171 = 0 + ((j 3).val - 171); omega)).trans ?_
  refine extractStridedSlice_apply (s := S1x128x21x256) (t := S1x128x21x85) _ _ _ _ (atTime j ⟨(j 1).val - 1, by omega⟩)
    (fun a => match a with
      | ⟨0, _⟩ => by show (j 0).val = 0 + (j 0).val; omega
      | ⟨1, _⟩ => by show (j 1).val - 1 = 0 + ((j 1).val - 1); omega
      | ⟨2, _⟩ => by show (j 2).val = 0 + (j 2).val; omega
      | ⟨3, _⟩ => by show (j 3).val = 171 + ((j 3).val - 171); omega)

theorem third_start (x0 : Vec F S1x128x21x256 .f32) (j : S1x128x21x256.Idx) (hc : 171 ≤ (j 3).val) (ht : ¬1 ≤ (j 1).val) :
    third x0 (inThird j hc) = zpad (F := F) := by
  have h3 : (j 3).val < 256 := (j 3).isLt
  unfold third
  exact concatenate_pair_apply_left (t := S1x128x21x85) (s₁ := S1x1x21x85) (s₂ := S1x127x21x85) _ _ _ _ (inThird j hc) rfl
    (fun a => match a with
      | ⟨0, _⟩ => ⟨(j 0).val, (j 0).isLt⟩
      | ⟨1, _⟩ => ⟨0, by show (0 : Nat) < 1; omega⟩
      | ⟨2, _⟩ => ⟨(j 2).val, (j 2).isLt⟩
      | ⟨3, _⟩ => ⟨(j 3).val - 171, by show (j 3).val - 171 < 85; omega⟩)
    (fun b => match b with
      | ⟨0, _⟩ => rfl
      | ⟨1, _⟩ => by show 0 = (j 1).val; omega
      | ⟨2, _⟩ => rfl
      | ⟨3, _⟩ => rfl)

/-! ## What the body stores is the shift of its block -/

/-- THE BODY'S STORED VALUE, as a function of the block it loaded, is that block shifted, with the converted integer 0
    as the padding value. -/
theorem stored_shifted (x0 : Vec F S1x128x21x256 .f32) :
    k0_pay1 x0 = shifted (zpad (F := F)) x0 := by
  funext j
  by_cases hc : (j 3).val < 86
  · rw [join_first x0 j hc]
    by_cases ht : (j 1).val + 1 < 128
    · rw [first_inside x0 j hc ht, shifted_first _ x0 j hc ht]
    · rw [first_end x0 j hc ht, shifted_first_end _ x0 j hc ht]
  · by_cases hc' : (j 3).val < 171
    · rw [join_second x0 j (by omega) hc', second_eq x0 j (by omega) hc', shifted_second _ x0 j hc hc']
    · rw [join_third x0 j (by omega)]
      by_cases ht : 1 ≤ (j 1).val
      · rw [third_inside x0 j (by omega) ht, shifted_third _ x0 j hc hc' ht]
      · rw [third_start x0 j (by omega) ht, shifted_third_start _ x0 j hc hc' ht]

end Cert.KernelIdeal.Shift

end
-- ==== Proof.KernelValue.lean ====
/-
  From the blocks to the whole array: the kernel's result array is its argument array shifted.

  The grid has 64 points, one per batch entry. At point `t` the input window's block and the output window's block are
  both batch entry `t` of their arrays: the index maps send `t` to block (t, 0, 0, 0), a block is [1, 128, 21, 256], so the
  element at `y` inside the block sits at (t, y₁, y₂, y₃) in the array. The body stores the shift of the block it loaded
  (KernelShift), and the shift acts inside each batch entry (TimeShift, `shifted_batch`), so what point `t` writes back is
  batch entry `t` of the shift of the WHOLE argument array. Every index of the result array lies in the block of the
  point given by its batch coordinate, so the 64 write-backs cover the array and it ends holding the shifted argument.
-/
import proofs.«151071_j71923522339051_1_alg».proof.Proof.Gen.KernelIdeal.Value
import proofs.«151071_j71923522339051_1_alg».proof.Proof.KernelShift
import proofs.«151071_j71923522339051_1_alg».proof.Proof.TimeShift
import Idealize.ShloMosaic.Lib.Pipeline.Value

noncomputable section

namespace Cert.KernelIdeal.Whole

open Cert.KernelIdeal Cert.KernelIdeal.Gen Cert.KernelIdeal.Shift Idealize.ShloMosaic Idealize.ShloMosaic.TcCoe Idealize.SL.Sem
open Cert.TimeShift
open Idealize.ShloMosaic.Pipeline (Dat)

variable {F : FTy → Type} [FloatOps F]
variable (m : (ℓ : Loc nD τ sig) → Buf (Elt F) ℓ) (ρ : Dev nD → PrngReg)

theorem hz : (![0, 0, 0, 0] : Fin 4 → Nat) = fun _ => 0 := funext fun a => by fin_cases a <;> rfl

/-- The argument array as the region finds it, shifted: what the result array ends holding. -/
abbrev result (c : Dev nD) : S64x128x21x256.Idx → Elt F .f32 :=
  shifted (B := 64) (zpad (F := F)) (V m c main_arg0 : S64x128x21x256.Idx → Elt F .f32)

/-- Both index maps send grid point `t` to block (t, 0, 0, 0) (decided over the 64 points). -/
theorem block_of_point : ∀ t : Fin cfg0.N,
    win0_0.index t (0 : Fin 4) = t.val ∧ win0_0.index t (1 : Fin 4) = 0
    ∧ win0_0.index t (2 : Fin 4) = 0 ∧ win0_0.index t (3 : Fin 4) = 0
    ∧ win0_1.index t (0 : Fin 4) = t.val ∧ win0_1.index t (1 : Fin 4) = 0
    ∧ win0_1.index t (2 : Fin 4) = 0 ∧ win0_1.index t (3 : Fin 4) = 0 :=
  (by decide +kernel : ∀ t : Fin grid0.N, _)

/-- A grid point is a batch entry. -/
abbrev entry (t : Fin cfg0.N) : Fin 64 := ⟨t.val, Nat.lt_of_lt_of_eq t.isLt (show cfg0.N = 64 from N_0)⟩

/-- The input window's block at point `t` is batch entry `t` of the argument array. -/
theorem iblk_eq (c : Dev nD) (t : Fin cfg0.N) :
    (iblk m c 0 t : Vec F S1x128x21x256 .f32)
      = fun y => (V m c main_arg0 : S64x128x21x256.Idx → Elt F .f32) (inBatch (entry t) y) := by
  obtain ⟨e0, e1, e2, e3, -, -, -, -⟩ := block_of_point t
  funext y
  show V m c main_arg0 (((cfg0.win 0).blk t).view.emb y) = V m c main_arg0 (inBatch (entry t) y)
  refine congrArg (V m c main_arg0) (funext fun a => Fin.ext ?_)
  match a with
  | ⟨0, _⟩ => show win0_0.index t (0 : Fin 4) * 1 + 1 * (y 0).val = t.val; have hy : (y 0).val < 1 := (y 0).isLt; omega
  | ⟨1, _⟩ => show win0_0.index t (1 : Fin 4) * 128 + 1 * (y 1).val = (y 1).val; omega
  | ⟨2, _⟩ => show win0_0.index t (2 : Fin 4) * 21 + 1 * (y 2).val = (y 2).val; omega
  | ⟨3, _⟩ => show win0_0.index t (3 : Fin 4) * 256 + 1 * (y 3).val = (y 3).val; omega

/-- The output window's block at point `t` sits at batch entry `t` of the result array. -/
theorem oblk_emb (t : Fin cfg0.N) (j : S1x128x21x256.Idx) :
    ((cfg0.win 1).blk t).view.emb j = inBatch (entry t) j := by
  obtain ⟨-, -, -, -, e0, e1, e2, e3⟩ := block_of_point t
  funext a
  apply Fin.ext
  match a with
  | ⟨0, _⟩ => show win0_1.index t (0 : Fin 4) * 1 + 1 * (j 0).val = t.val; have hj : (j 0).val < 1 := (j 0).isLt; omega
  | ⟨1, _⟩ => show win0_1.index t (1 : Fin 4) * 128 + 1 * (j 1).val = (j 1).val; omega
  | ⟨2, _⟩ => show win0_1.index t (2 : Fin 4) * 21 + 1 * (j 2).val = (j 2).val; omega
  | ⟨3, _⟩ => show win0_1.index t (3 : Fin 4) * 256 + 1 * (j 3).val = (j 3).val; omega

/-- WHAT POINT `t` WRITES BACK is block `t` of the shifted argument array: the body stores the shift of batch entry `t`,
    which is batch entry `t` of the shift. -/
theorem flushed_eq (c : Dev nD) (t : Fin cfg0.N) :
    (dats m 0 c).flushed 1 t = ((cfg0.win 1).blk t).view.read (Elt F) (result m c) := by
  rw [Cert.KernelIdeal.Value.flushed1]
  unfold out0_1
  rw [View.canon_unit_zero hz]
  simp only [View.ld_unit_zero (S := S1x128x21x256) hz]
  rw [stored_shifted, iblk_eq m c t]
  funext j
  show shifted (zpad (F := F)) (fun y => (V m c main_arg0 : S64x128x21x256.Idx → Elt F .f32) (inBatch (entry t) y)) j
    = result m c (((cfg0.win 1).blk t).view.emb j)
  rw [oblk_emb t j]
  exact shifted_batch _ _ (entry t) j

/-- An index of the array is in point `t`'s block iff each coordinate is in the block's range on its axis. -/
theorem mem_blk (t : Fin cfg0.N) (i : S64x128x21x256.Idx) :
    i ∈ ((cfg0.win 1).blk t).view.set ↔ ∀ a : Fin 4, win0_1.index t a * S1x128x21x256.size a ≤ (i a).val
      ∧ (i a).val < win0_1.index t a * S1x128x21x256.size a + S1x128x21x256.size a := by
  show i ∈ ((View.whole main_v0).slice (win0_1.rect t)).set ↔ _
  rw [View.set_slice_whole, Rect.mem_set_unit]
  exact Iff.rfl

/-- Every index of the result array is in the block of the point its batch coordinate names. -/
theorem covered (i : S64x128x21x256.Idx) :
    ∃ t : Fin cfg0.N, (cfg0.win 1).flush t = true ∧ i ∈ ((cfg0.win 1).blk t).view.set := by
  have h0 : (i 0).val < 64 := (i 0).isLt
  have h1 : (i 1).val < 128 := (i 1).isLt
  have h2 : (i 2).val < 21 := (i 2).isLt
  have h3 : (i 3).val < 256 := (i 3).isLt
  let t : Fin cfg0.N := ⟨(i 0).val, Nat.lt_of_lt_of_eq h0 (show (64 : Nat) = cfg0.N from N_0.symm)⟩
  obtain ⟨-, -, -, -, e0, e1, e2, e3⟩ := block_of_point t
  have ht : t.val = (i 0).val := rfl
  refine ⟨t, flush0_1 t, ?_⟩
  rw [mem_blk]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 128 ≤ (i 1).val ∧ (i 1).val < win0_1.index t (1 : Fin 4) * 128 + 128; omega
  | ⟨2, _⟩ => show win0_1.index t (2 : Fin 4) * 21 ≤ (i 2).val ∧ (i 2).val < win0_1.index t (2 : Fin 4) * 21 + 21; omega
  | ⟨3, _⟩ => show win0_1.index t (3 : Fin 4) * 256 ≤ (i 3).val ∧ (i 3).val < win0_1.index t (3 : Fin 4) * 256 + 256; omega

/-- THE RESULT ARRAY after the run is the shifted argument array. -/
theorem final (c : Dev nD) : (dats m 0 c).arrAt 1 cfg0.N = result m c :=
  (dats m 0 c).arrAt_eq_of_cover 1 (result m c) (fun t _ => flushed_eq m c t) covered

/-- The kernel's run, read: the result array ends at the shift of the argument array as launched, the argument unchanged. -/
theorem run : θ_run defs (onTc (τ := τ) (main (F := F))) ⟨m, fun _ => 0, ρ⟩ fun r => ∀ c : Dev nD,
      r.2.mem ((c : Thread nD τ).loc main_v0)
        = shifted (B := 64) (zpad (F := F)) (m ((c : Thread nD τ).loc main_arg0) : S64x128x21x256.Idx → Elt F .f32)
      ∧ r.2.mem ((c : Thread nD τ).loc main_arg0) = m ((c : Thread nD τ).loc main_arg0) :=
  (θ_run defs _ _).mono (fun r h c => ⟨(h c).1.trans (final m c), (h c).2⟩)
    (Cert.KernelIdeal.Value.run_blocks m ρ)

end Cert.KernelIdeal.Whole

end
-- ==== Proof.lean ====
/-
  A temporal shift by channel group: the kernel against its jnp reference, over the extended reals.

  Both programs take an array `x` of extents [64, 128, 21, 256] (batch entry, time step, node, channel), cut the channels
  into the three groups [0, 86), [86, 171), [171, 256), and move the first group one time step one way and the third one
  time step the other way along the time axis, filling the step that falls off the array with zero:
      y[b, t, n, c] = x[b, t + 1, n, c]  (c < 86),   x[b, t, n, c]  (86 ≤ c < 171),   x[b, t − 1, n, c]  (171 ≤ c),
  with 0 where t + 1 = 128 or t − 1 < 0 (Proof/TimeShift.lean, `shifted`). No arithmetic is done on the entries, so no
  law of the extended reals is needed and the finiteness of the input is never used: the two results are the same
  entries of `x`, or the same zero, at every index.

  The reference (Proof/ReferenceShift.lean) does it on the whole array with slices, two pads and a join; read at an index
  its result is `shifted` of its argument. The kernel (Proof/KernelShift.lean, Proof/KernelValue.lean) runs a grid of 64
  points, one batch entry per point; its body does the same with slices and joins on the one entry it holds, so it stores
  the shift of that entry, which is that entry of the shift of the whole array; the 64 blocks written back cover the result
  array, which therefore ends holding `shifted` of the argument. The padding value is the integer 0 converted to a float
  on both sides: at the ideal instance both conversions are the real number 0.

  The frames are the generated ones (the reference's is its generated run with the result dropped), and the kernel's
  idealization rewrote nothing, so `preserves` has nothing to state.
-/
import proofs.«151071_j71923522339051_1_alg».proof.Defs
import proofs.«151071_j71923522339051_1_alg».proof.Proof.Gen.Kernel
import proofs.«151071_j71923522339051_1_alg».proof.Proof.Gen.Kernel.Skeleton
import proofs.«151071_j71923522339051_1_alg».proof.Proof.Gen.Kernel.Launch
import proofs.«151071_j71923522339051_1_alg».proof.Proof.Gen.Kernel.Points
import proofs.«151071_j71923522339051_1_alg».proof.Proof.Gen.Kernel.Frame
import proofs.«151071_j71923522339051_1_alg».proof.Proof.Gen.KernelIdeal
import proofs.«151071_j71923522339051_1_alg».proof.Proof.Gen.KernelIdeal.Skeleton
import proofs.«151071_j71923522339051_1_alg».proof.Proof.Gen.KernelIdeal.Launch
import proofs.«151071_j71923522339051_1_alg».proof.Proof.Gen.KernelIdeal.Points
import proofs.«151071_j71923522339051_1_alg».proof.Proof.Gen.KernelIdeal.Frame
import proofs.«151071_j71923522339051_1_alg».proof.Proof.Gen.ReferenceIdeal
import proofs.«151071_j71923522339051_1_alg».proof.Proof.Gen.Pre_finite_inputs
import proofs.«151071_j71923522339051_1_alg».proof.Proof.Gen.KernelIdeal.Value
import proofs.«151071_j71923522339051_1_alg».proof.Proof.Gen.ReferenceIdeal.Run
import proofs.«151071_j71923522339051_1_alg».proof.Proof.Gen.ReferenceIdeal.Read
import proofs.«151071_j71923522339051_1_alg».proof.Proof.TimeShift
import proofs.«151071_j71923522339051_1_alg».proof.Proof.ReferenceShift
import proofs.«151071_j71923522339051_1_alg».proof.Proof.KernelShift
import proofs.«151071_j71923522339051_1_alg».proof.Proof.KernelValue
import Idealize.ShloMosaic.Adequacy
import Idealize.ShloMosaic.Init

noncomputable section

namespace Cert.Proof

open Idealize.ShloMosaic Idealize.SL.Sem Cert.TimeShift

/-- The word-level kernel runs and leaves its argument alone: the generated frame. -/
theorem frame_kernel : Cert.frame_Kernel := fun m ρ _ => Cert.Kernel.Gen.frame m ρ

/-- So does the kernel read at the ideal instance. -/
theorem frame_kernelIdeal : Cert.frame_KernelIdeal := fun m ρ _ => Cert.KernelIdeal.Gen.frame m ρ

/-- The reference runs and leaves its argument alone: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The two padding values — the reference's converted integer 0 and the kernel body's — are the same extended real:
    the real number 0. -/
theorem zpad_eq : Cert.ReferenceIdeal.Shift.zpad (F := Ideal) = Cert.KernelIdeal.Shift.zpad (F := Ideal) := rfl

/-- From memories that agree on the argument, the kernel's result array ends at the shift of the argument (the blocks
    covering the array) and the reference's at the shift of its argument (its run read at an index): one array. -/
theorem algebraic : Cert.algebraic_KernelIdeal_ReferenceIdeal := by
  intro m ρ m' ρ' _ hagree
  refine ⟨_, Cert.KernelIdeal.Whole.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.Shift.result_eq, hagree c, zpad_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
